-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1000 : Shape := ⟨2, ![8192, 1000]⟩
abbrev S4096x1000 : Shape := ⟨2, ![4096, 1000]⟩
abbrev S_ : Shape := ⟨0, ![]⟩

class Facts : Prop where
  bcast_S_S8192x1000 : S_.BroadcastsInDim S8192x1000 (![] : Fin 0 → Fin S8192x1000.rank)
  reducesTo_S8192x1000_S_d0_1 : S8192x1000.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_

variable [Facts]

def fn {F : FTy → Type} [FloatOps F] (main_arg0 : FVec F S8192x1000 .f32) (main_arg1 : FVec F S4096x1000 .f32) : IVec S_ 1 :=
  let main_v0 : FVec F S8192x1000 .f32 := Host.absf main_arg0
  let main_cst : FVec F S_ .f32 := constant S_ .f32 0x7F800000#32
  let main_v1 : FVec F S8192x1000 .f32 := broadcastInDim S8192x1000 ![] bcast_S_S8192x1000 main_cst
  let main_v2 : IVec S8192x1000 1 := cmpf .olt main_v0 main_v1
  let main_c : IVec S_ 1 := constantI S_ 1 1#1
  let main_v3 : IVec S_ 1 := (fun x v => Host.reduce IntOp.andi x v reducesTo_S8192x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  main_v8
-- ==== Kernel.lean ====
abbrev S8192x1000 : Shape := ⟨2, ![8192, 1000]⟩
abbrev S4096x1000 : Shape := ⟨2, ![4096, 1000]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩
abbrev S1024x1000 : Shape := ⟨2, ![1024, 1000]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x1000, .f32⟩
  | .hbm, ⟨1, _⟩ => ⟨S4096x1000, .f32⟩
  | .hbm, ⟨2, _⟩ => ⟨S8192x1000, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1000, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S8192x1000, .bf16⟩
  | .hbm, ⟨11, _⟩ => ⟨S4096x1000, .bf16⟩
  | .hbm, ⟨12, _⟩ => ⟨S8192x4096, .f32⟩
  | .local _ .vmem, ⟨0, _⟩ => ⟨S1024x1000, .bf16⟩
  | .local _ .vmem, ⟨1, _⟩ => ⟨S1024x1000, .bf16⟩
  | .local _ .vmem, ⟨2, _⟩ => ⟨S1024x1000, .bf16⟩
  | .local _ .vmem, ⟨3, _⟩ => ⟨S1024x1000, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1000_S8192_d1 : S8192x1000.ReducesTo [1] S8192
  h_S_ : 0 < S_.numel
  bcast_S8192_S8192x1_0 : S8192.BroadcastsInDim S8192x1 (![0] : Fin 1 → Fin S8192x1.rank)
  reducesTo_S4096x1000_S4096_d1 : S4096x1000.ReducesTo [1] S4096
  bcast_S4096_S1x4096_1 : S4096.BroadcastsInDim S1x4096 (![1] : Fin 1 → Fin S1x4096.rank)
  bitsLt_bf16_f32 : FTy.bits .bf16 < FTy.bits .f32
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x1000_S1024x1000_S1024x1024_1_1_0_0_n_n_wf : DotDims.WF S1024x1000 S1024x1000 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S8192x1000.size a
  hwx0_0 : ∀ i : grid0.Coords, EltTy.bits .bf16 = 32 ∨ (Rect.block (s := S8192x1000) S1024x1000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S4096x1000.size a
  hwx0_1 : ∀ i : grid0.Coords, EltTy.bits .bf16 = 32 ∨ (Rect.block (s := S4096x1000) S1024x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1000_S1024x1000_S1024x1024_1_1_0_0_n_n : DotDims S1024x1000 S1024x1000 S1024x1024 where
  lhsContracting := [1]
  rhsContracting := [1]
  lhsNonContracting := [0]
  rhsNonContracting := [0]
  lhsBatch := []
  rhsBatch := []
  wf := dot_S1024x1000_S1024x1000_S1024x1024_1_1_0_0_n_n_wf

abbrev win0_0 : Pipeline.Window sig grid0 :=
  Pipeline.Window.ofSpec (Memref.whole main_v6) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1000 : Shape := ⟨2, ![8192, 1000]⟩
abbrev S4096x1000 : Shape := ⟨2, ![4096, 1000]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1000, .f32⟩
  | .hbm, ⟨1, _⟩ => ⟨S4096x1000, .f32⟩
  | .hbm, ⟨2, _⟩ => ⟨S8192x1000, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1000, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1000_S8192_d1 : S8192x1000.ReducesTo [1] S8192
  h_S_ : 0 < S_.numel
  bcast_S8192_S8192x1_0 : S8192.BroadcastsInDim S8192x1 (![0] : Fin 1 → Fin S8192x1.rank)
  reducesTo_S4096x1000_S4096_d1 : S4096x1000.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x1000_S4096x1000_S8192x4096_1_1_0_0_n_n_wf : DotDims.WF S8192x1000 S4096x1000 S8192x4096 [1] [1] [0] [0] [] []

variable [Facts₀]

def dot_S8192x1000_S4096x1000_S8192x4096_1_1_0_0_n_n : DotDims S8192x1000 S4096x1000 S8192x4096 where
  lhsContracting := [1]
  rhsContracting := [1]
  lhsNonContracting := [0]
  rhsNonContracting := [0]
  lhsBatch := []
  rhsBatch := []
  wf := dot_S8192x1000_S4096x1000_S8192x4096_1_1_0_0_n_n_wf

class Facts : Prop extends Facts₀ where

variable [Facts]
-- ==== Proof.PairwiseDistance.lean ====
/-
  The pairwise Euclidean distance between the rows of an 8192 × 1000 matrix `x` and the rows of a 4096 × 1000
  matrix `p`, as ONE function of the two matrices on the extended reals:

      dist x p (r, q) = sqrt (max ((‖x r‖² + ‖p q‖²) - 2 · ⟨x r, p q⟩) 0),

  with ‖a r‖² = 0 + ∑ k, a (r, k) · a (r, k) (the sum starts from the zero word's value) and
  ⟨x r, p q⟩ = ∑ k, x (r, k) · p (q, k). The two float literals (2 and 0) are kept as their f32 words: both
  programs spell the same words, so they are never evaluated. Nothing here needs the entries to be finite: the
  two programs apply the same operations in the same order, and only the arrangement of the data differs.
-/
import Idealize.ShloMosaic.PureOps.Ideal
import Idealize.ShloMosaic.Lib.ValueIdx

noncomputable section

open scoped BigOperators

namespace Cert.PairwiseDistance

open Idealize.ShloMosaic Idealize.ShloMosaic.ValueIdx

/-- The squared norm of row `r` of an `n × 1000` matrix: the zero word's value plus the sum of the squares. -/
def rowSq {n : Nat} (a : (⟨2, ![n, 1000]⟩ : Shape).Idx → EReal) (r : Fin n) : EReal :=
  Ideal.ofBits .f32 0x00000000#32 + ∑ k : Fin 1000, a (ix2 r k) * a (ix2 r k)

/-- The inner product of row `r` of `x` with row `q` of `p`. -/
def rowDot {n n' : Nat} (x : (⟨2, ![n, 1000]⟩ : Shape).Idx → EReal) (p : (⟨2, ![n', 1000]⟩ : Shape).Idx → EReal)
    (r : Fin n) (q : Fin n') : EReal :=
  ∑ k : Fin 1000, x (ix2 r k) * p (ix2 q k)

/-- One entry of the distance matrix from the two squared norms and the inner product. -/
def entry (sx sp d : EReal) : EReal :=
  Ideal.sqrt (max ((sx + sp) - Ideal.ofBits .f32 0x40000000#32 * d) (Ideal.ofBits .f32 0x00000000#32))

/-- The distance matrix. -/
def dist (x : (⟨2, ![8192, 1000]⟩ : Shape).Idx → EReal) (p : (⟨2, ![4096, 1000]⟩ : Shape).Idx → EReal) :
    (⟨2, ![8192, 4096]⟩ : Shape).Idx → EReal :=
  fun i => entry (rowSq x (i 0)) (rowSq p (i 1)) (rowDot x p (i 0) (i 1))

end Cert.PairwiseDistance

end
-- ==== Proof.ReferenceDistance.lean ====
/-
  The reference program's result is the distance matrix. Read one operation at a time, its last stage at
  index (r, q) is sqrt (max ((x2 r + p2 q) - 2 · (x · pᵀ) (r, q)) 0), where x2 and p2 are the host's row sums of
  squares (each broadcast along the other axis) and x · pᵀ is the host's contraction over the common axis; each
  of the three is the corresponding sum of `Cert.PairwiseDistance` once the composed index functions are
  identified with the coordinates (r, k) and (q, k).
-/
import proofs.«119724_j64458869178544_1_alg».proof.Proof.Gen.ReferenceIdeal.Read
import proofs.«119724_j64458869178544_1_alg».proof.Proof.PairwiseDistance

noncomputable section

open scoped BigOperators

namespace Cert.ReferenceIdeal.Distance

open Cert.ReferenceIdeal Cert.ReferenceIdeal.Read Cert.PairwiseDistance
open Idealize.ShloMosaic Idealize.ShloMosaic.ValueIdx

/-- The row of `x` that the broadcast column of squared norms reads at output index `i` is row `i 0`. -/
theorem idx_xsq (i : S8192x4096.Idx) (k : Fin 1000) :
    idx_main_v1 (idx_main_v2 (idx_main_v7 i)) k = ix2 (n0 := 8192) (i 0) k :=
  funext fun a => Fin.ext (by match a with | ⟨0, _⟩ => rfl | ⟨1, _⟩ => rfl)

/-- The row of `p` that the broadcast row of squared norms reads at output index `i` is row `i 1`. -/
theorem idx_psq (i : S8192x4096.Idx) (k : Fin 1000) :
    idx_main_v4 (idx_main_v6 (idx_main_v8 i)) k = ix2 (n0 := 4096) (i 1) k :=
  funext fun a => Fin.ext (by match a with | ⟨0, _⟩ => rfl | ⟨1, _⟩ => rfl)

/-- The contraction's left operand index at `(i, k)` is `(i 0, k)`. -/
theorem idx_lhs (i : S8192x4096.Idx) (k : Fin 1000) : lidx_main_v5 i k = ix2 (n0 := 8192) (i 0) k :=
  funext fun a => Fin.ext (by match a with | ⟨0, _⟩ => rfl | ⟨1, _⟩ => rfl)

/-- The contraction's right operand index at `(i, k)` is `(i 1, k)`. -/
theorem idx_rhs (i : S8192x4096.Idx) (k : Fin 1000) : ridx_main_v5 i k = ix2 (n0 := 4096) (i 1) k :=
  funext fun a => Fin.ext (by match a with | ⟨0, _⟩ => rfl | ⟨1, _⟩ => rfl)

/-- The reference's last stage is the distance matrix of its two arguments. -/
theorem result_eq (x0 : (⟨S8192x1000, .f32⟩ : BufTy).Contents (Elt Ideal)) (x1 : (⟨S4096x1000, .f32⟩ : BufTy).Contents (Elt Ideal)) :
    val_main_v15 (F := Ideal) x0 x1 = dist x0 x1 := by
  funext i
  rw [val_main_v15_apply, val_main_v14_apply, val_main_v12_apply, val_main_v9_apply, val_main_v7_apply, val_main_v2_apply,
    val_main_v1_apply, val_main_v8_apply, val_main_v6_apply, val_main_v4_apply, val_main_v11_apply, val_main_v10_apply,
    val_main_v5_apply, val_main_v13_apply]
  simp only [val_main_v0_apply, val_main_v3_apply, val_main_cst_apply, val_main_cst_0_apply, val_main_cst_1_apply,
    val_main_cst_2_apply, idx_xsq, idx_psq, idx_lhs, idx_rhs, Ideal.mulf_def, Ideal.addf_def, Ideal.subf_def,
    Ideal.maximumf_def, Ideal.hostUnary_sqrt_def, Ideal.ofBits_def]
  rfl

end Cert.ReferenceIdeal.Distance

end
-- ==== Proof.BlockDistance.lean ====
/-
  One 1024 × 1024 block of the kernel's output, entry by entry. The body loads a 1024 × 1000 block `xb` of `x`, a
  1024 × 1000 block `pb` of `p`, a 1024 × 1 column `sx` of squared norms and a 1 × 1024 row `sp` of squared norms, and
  stores sqrt (max ((sx + sp) - 2 · (xb · pbᵀ)) 0), the column and the row broadcast to the block. At entry (a, b):
  the column reads `sx (a, 0)`, the row reads `sp (0, b)`, and the matrix unit's product into a zero accumulator is
  the sum over the common axis `∑ k, xb (a, k) · pb (b, k)` — the contraction index is its one coordinate.
-/
import proofs.«119724_j64458869178544_1_alg».proof.Proof.Gen.KernelIdeal.Skeleton
import proofs.«119724_j64458869178544_1_alg».proof.Proof.PairwiseDistance
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Cert.PairwiseDistance
open Idealize.ShloMosaic Idealize.ShloMosaic.ValueIdx

/-! ## The contraction's operand indices, axis by axis -/

theorem lhs_axis0 (i : S1024x1024.Idx) (q : dot_S1024x1000_S1024x1000_S1024x1024_1_1_0_0_n_n.contr.Idx) :
    (dot_S1024x1000_S1024x1000_S1024x1024_1_1_0_0_n_n.lhsIdx i q 0).val = (i 0).val := by
  unfold DotDims.lhsIdx
  rw [dif_neg (show ¬(0 : Fin S1024x1000.rank) ∈ dot_S1024x1000_S1024x1000_S1024x1024_1_1_0_0_n_n.lhsBatch by decide), dif_pos (show (0 : Fin S1024x1000.rank) ∈ dot_S1024x1000_S1024x1000_S1024x1024_1_1_0_0_n_n.lhsNonContracting by decide)]
  rfl
theorem lhs_axis1 (i : S1024x1024.Idx) (q : dot_S1024x1000_S1024x1000_S1024x1024_1_1_0_0_n_n.contr.Idx) :
    (dot_S1024x1000_S1024x1000_S1024x1024_1_1_0_0_n_n.lhsIdx i q 1).val = (q ⟨0, by decide⟩).val :=
  dot_S1024x1000_S1024x1000_S1024x1024_1_1_0_0_n_n.lhsIdx_val_of_single rfl i q
theorem rhs_axis0 (i : S1024x1024.Idx) (q : dot_S1024x1000_S1024x1000_S1024x1024_1_1_0_0_n_n.contr.Idx) :
    (dot_S1024x1000_S1024x1000_S1024x1024_1_1_0_0_n_n.rhsIdx i q 0).val = (i 1).val := by
  unfold DotDims.rhsIdx
  rw [dif_neg (show ¬(0 : Fin S1024x1000.rank) ∈ dot_S1024x1000_S1024x1000_S1024x1024_1_1_0_0_n_n.rhsBatch by decide), dif_pos (show (0 : Fin S1024x1000.rank) ∈ dot_S1024x1000_S1024x1000_S1024x1024_1_1_0_0_n_n.rhsNonContracting by decide)]
  rfl
theorem rhs_axis1 (i : S1024x1024.Idx) (q : dot_S1024x1000_S1024x1000_S1024x1024_1_1_0_0_n_n.contr.Idx) :
    (dot_S1024x1000_S1024x1000_S1024x1024_1_1_0_0_n_n.rhsIdx i q 1).val = (q ⟨0, by decide⟩).val :=
  dot_S1024x1000_S1024x1000_S1024x1024_1_1_0_0_n_n.rhsIdx_val_of_single rfl i q

/-- The block product into a zero accumulator at entry `(a, b)`: row `a` of the left block against row `b` of the
    right block, summed over the 1000 common coordinates. -/
theorem product_apply (l r : FVec Ideal S1024x1000 .bf16) (a b : Fin 1024) :
    matmul dot_S1024x1000_S1024x1000_S1024x1024_1_1_0_0_n_n none l r (constant S1024x1024 .f32 0x00000000#32) (ix2 a b)
      = ∑ k : Fin 1000, l (ix2 a k) * r (ix2 b k) := by
  simp only [matmul]
  rw [Ideal.matmul_constant_zero_apply, ← Equiv.sum_comp (contrEquiv1 dot_S1024x1000_S1024x1000_S1024x1024_1_1_0_0_n_n 1000 rfl rfl).symm]
  refine Finset.sum_congr rfl fun k _ => ?_
  have hk := contrEquiv1_symm_val dot_S1024x1000_S1024x1000_S1024x1024_1_1_0_0_n_n 1000 rfl rfl k
  have el : dot_S1024x1000_S1024x1000_S1024x1024_1_1_0_0_n_n.lhsIdx (ix2 a b) ((contrEquiv1 dot_S1024x1000_S1024x1000_S1024x1024_1_1_0_0_n_n 1000 rfl rfl).symm k) = ix2 a k := funext fun d => Fin.ext (by
    match d with
    | ⟨0, _⟩ => exact lhs_axis0 _ _
    | ⟨1, _⟩ => exact (lhs_axis1 _ _).trans hk)
  have er : dot_S1024x1000_S1024x1000_S1024x1024_1_1_0_0_n_n.rhsIdx (ix2 a b) ((contrEquiv1 dot_S1024x1000_S1024x1000_S1024x1024_1_1_0_0_n_n 1000 rfl rfl).symm k) = ix2 b k := funext fun d => Fin.ext (by
    match d with
    | ⟨0, _⟩ => exact rhs_axis0 _ _
    | ⟨1, _⟩ => exact (rhs_axis1 _ _).trans hk)
  rw [el, er]

/-! ## The two broadcasts -/

/-- A 1024 × 1 column broadcast to the block reads its row's one entry. -/
theorem column_apply (v : FVec Ideal S1024x1 .f32) (a b : Fin 1024) :
    broadcastTo S1024x1024 v broadcasts_S1024x1_S1024x1024 (ix2 a b) = v (ix2 a 0) :=
  broadcastTo_apply v broadcasts_S1024x1_S1024x1024 (ix2 a b) (ix2 a 0) (fun d => match d with
    | ⟨0, _⟩ => by show a.val = if (1024 : Nat) = 1 then 0 else a.val; rw [if_neg (by decide)]
    | ⟨1, _⟩ => by show 0 = if (1 : Nat) = 1 then 0 else b.val; rw [if_pos rfl])

/-- A 1 × 1024 row broadcast to the block reads its column's one entry. -/
theorem row_apply (v : FVec Ideal S1x1024 .f32) (a b : Fin 1024) :
    broadcastTo S1024x1024 v broadcasts_S1x1024_S1024x1024 (ix2 a b) = v (ix2 0 b) :=
  broadcastTo_apply v broadcasts_S1x1024_S1024x1024 (ix2 a b) (ix2 0 b) (fun d => match d with
    | ⟨0, _⟩ => by show 0 = if (1 : Nat) = 1 then 0 else a.val; rw [if_pos rfl]
    | ⟨1, _⟩ => by show b.val = if (1024 : Nat) = 1 then 0 else b.val; rw [if_neg (by decide)])

/-! ## The stored value at an entry -/

/-- The body's stored value, the trivial shape casts removed. -/
theorem payload_eq (xb pb : FVec Ideal S1024x1000 .bf16) (sx : FVec Ideal S1024x1 .f32) (sp : FVec Ideal S1x1024 .f32) :
    k0_pay1 (F := Ideal) xb pb sx sp
      = sqrt (maximumf (subf (addf (broadcastTo S1024x1024 sx broadcasts_S1024x1_S1024x1024) (broadcastTo S1024x1024 sp broadcasts_S1x1024_S1024x1024))
          (mulf (broadcast S1024x1024 (Scalar.ofBits (F := Ideal) .f32 0x40000000#32)) (matmul (φ₁ := .bf16) (φ₂ := .bf16) dot_S1024x1000_S1024x1000_S1024x1024_1_1_0_0_n_n none xb pb (constant S1024x1024 .f32 0x00000000#32))))
          (broadcast S1024x1024 (Scalar.ofBits (F := Ideal) .f32 0x00000000#32))) := by
  unfold k0_pay1
  simp only [shapeCast_self]

/-- Entry `(a, b)` of the stored block is `entry` of the column's entry at row `a`, the row's entry at column `b`
    and the inner product of row `a` of `xb` with row `b` of `pb`. -/
theorem payload_apply (xb pb : FVec Ideal S1024x1000 .bf16) (sx : FVec Ideal S1024x1 .f32) (sp : FVec Ideal S1x1024 .f32) (a b : Fin 1024) :
    k0_pay1 (F := Ideal) xb pb sx sp (ix2 a b)
      = entry (sx (ix2 a 0)) (sp (ix2 0 b)) (∑ k : Fin 1000, xb (ix2 a k) * pb (ix2 b k)) := by
  rw [payload_eq]
  show Ideal.sqrt (max ((broadcastTo S1024x1024 sx broadcasts_S1024x1_S1024x1024 (ix2 a b) + broadcastTo S1024x1024 sp broadcasts_S1x1024_S1024x1024 (ix2 a b))
      - Ideal.ofBits .f32 0x40000000#32 * matmul (φ₁ := .bf16) (φ₂ := .bf16) dot_S1024x1000_S1024x1000_S1024x1024_1_1_0_0_n_n none xb pb (constant S1024x1024 .f32 0x00000000#32) (ix2 a b))
      (Ideal.ofBits .f32 0x00000000#32)) = _
  rw [column_apply, row_apply, product_apply]
  rfl

end Cert.KernelIdeal.Block

end
-- ==== Proof.DistanceArray.lean ====
/-
  The kernel's output array is the distance matrix. Before the region the host computes, from the arguments
  `x` and `p`: the column of squared norms of `x`'s rows (8192 × 1), the row of squared norms of `p`'s rows (1 × 4096),
  and copies of `x` and `p` in a narrower format, which on the extended reals are `x` and `p` themselves. At grid
  point t = (i, j) the body is handed rows [1024 i, 1024 i + 1024) of `x` and of the column, rows
  [1024 j, 1024 j + 1024) of `p` and the same columns of the row, and writes block (i, j) of the output. Entry
  (a, b) of that block is therefore entry (1024 i + a, 1024 j + b) of the distance matrix; the 8 × 4 blocks tile the
  8192 × 4096 array, so after the run the array is the distance matrix everywhere.
-/
import proofs.«119724_j64458869178544_1_alg».proof.Proof.Gen.KernelIdeal.Value
import proofs.«119724_j64458869178544_1_alg».proof.Proof.BlockDistance
import Idealize.ShloMosaic.Lib.StableHlo.Run

noncomputable section

open scoped BigOperators

namespace Cert.KernelIdeal.Distance

open Cert.KernelIdeal Cert.KernelIdeal.Gen Cert.KernelIdeal.Value Cert.KernelIdeal.Block Cert.PairwiseDistance
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host leaves for the region -/

/-- The column of squared row norms of an 8192 × 1000 matrix, as the host computes it. -/
def sqColumn (x : FVec Ideal S8192x1000 .f32) : FVec Ideal S8192x1 .f32 :=
  broadcastInDim S8192x1 ![0] bcast_S8192_S8192x1_0
    (Host.reduceAdd (mulf x x) (constant (F := Ideal) S_ .f32 0x00000000#32) reducesTo_S8192x1000_S8192_d1 h_S_)

/-- The row of squared row norms of a 4096 × 1000 matrix, as the host computes it. -/
def sqRow (p : FVec Ideal S4096x1000 .f32) : FVec Ideal S1x4096 .f32 :=
  broadcastInDim S1x4096 ![1] bcast_S4096_S1x4096_1
    (Host.reduceAdd (mulf p p) (constant (F := Ideal) S_ .f32 0x00000000#32) reducesTo_S4096x1000_S4096_d1 h_S_)

/-- Entry `(r, 0)` of the column is the squared norm of row `r`. -/
theorem sqColumn_apply (x : FVec Ideal S8192x1000 .f32) (i : S8192x1.Idx) : sqColumn x i = rowSq x (i 0) := by
  unfold sqColumn
  rw [broadcastInDim_apply _ bcast_S8192_S8192x1_0 _ i (ix1 (n := 8192) (i 0)) (fun a => match a with
    | ⟨0, _⟩ => by show (i 0).val = if (8192 : Nat) = 1 then 0 else (i 0).val; rw [if_neg (by decide)])]
  generalize hy : mulf x x = y
  simp only [Host.reduceAdd, Ideal.hostReduceAdd_def]
  rw [Ideal.hostReduceAdd_single reducesTo_S8192x1000_S8192_d1 (by decide)]
  unfold rowSq
  refine congrArg₂ (· + ·) rfl (Finset.sum_congr rfl fun k _ => ?_)
  subst hy
  exact congrArg (fun j => x j * x j) (funext fun a => Fin.ext (by match a with | ⟨0, _⟩ => rfl | ⟨1, _⟩ => rfl))

/-- Entry `(0, q)` of the row is the squared norm of row `q`. -/
theorem sqRow_apply (p : FVec Ideal S4096x1000 .f32) (i : S1x4096.Idx) : sqRow p i = rowSq p (i 1) := by
  unfold sqRow
  rw [broadcastInDim_apply _ bcast_S4096_S1x4096_1 _ i (ix1 (n := 4096) (i 1)) (fun a => match a with
    | ⟨0, _⟩ => by show (i 1).val = if (4096 : Nat) = 1 then 0 else (i 1).val; rw [if_neg (by decide)])]
  generalize hy : mulf p p = y
  simp only [Host.reduceAdd, Ideal.hostReduceAdd_def]
  rw [Ideal.hostReduceAdd_single reducesTo_S4096x1000_S4096_d1 (by decide)]
  unfold rowSq
  refine congrArg₂ (· + ·) rfl (Finset.sum_congr rfl fun k _ => ?_)
  subst hy
  exact congrArg (fun j => p j * p j) (funext fun a => Fin.ext (by match a with | ⟨0, _⟩ => rfl | ⟨1, _⟩ => rfl))

/-- The region finds the narrowed copy of `x` equal to `x`: a change of format is the identity on the extended reals. -/
theorem entry_x (c : Dev nD) : (V m c main_v6 : S8192x1000.Idx → EReal) = (m ((c : Thread nD τ).loc main_arg0)) := by
  dsimp only [Gen.V, Gen.hostOps0]; after_results; rfl

/-- The same for `p`. -/
theorem entry_p (c : Dev nD) : (V m c main_v7 : S4096x1000.Idx → EReal) = (m ((c : Thread nD τ).loc main_arg1)) := by
  dsimp only [Gen.V, Gen.hostOps0]; after_results; rfl

/-- The region finds the column of squared norms of `x`'s rows. -/
theorem entry_sqx (c : Dev nD) : (V m c main_v2 : S8192x1.Idx → EReal) = sqColumn (m ((c : Thread nD τ).loc main_arg0)) := by
  dsimp only [Gen.V, Gen.hostOps0]; after_results; rfl

/-- The region finds the row of squared norms of `p`'s rows. -/
theorem entry_sqp (c : Dev nD) : (V m c main_v5 : S1x4096.Idx → EReal) = sqRow (m ((c : Thread nD τ).loc main_arg1)) := by
  dsimp only [Gen.V, Gen.hostOps0]; after_results; rfl

/-! ## One grid point writes one block of the distance matrix -/

theorem origin : (![0, 0] : Fin 2 → Nat) = fun _ => 0 := funext fun a => by fin_cases a <;> rfl

/-- The printed index maps over the 32 grid points: `x`'s block and the column move with the output's row block,
    `p`'s block and the row with the output's column block, and the output's block indices range over 8 × 4. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block of the 8 × 4 tiling is some grid point's. -/
theorem block_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

theorem mul_congr {u u' v v' : EReal} (hu : u = u') (hv : v = v') : u * v = u' * v' := by
  subst hu hv; rfl

theorem entry_congr {s s' u u' d d' : EReal} (hs : s = s') (hu : u = u') (hd : d = d') : entry s u d = entry s' u' d' := by
  subst hs hu hd; rfl

/-- What grid point `t` writes back is block `t` of the distance matrix of the arguments. -/
theorem flushed_eq (c : Dev nD) (t : Fin cfg0.N) :
    (dats m 0 c).flushed 4 t = ((cfg0.win 4).blk t).view.read (Elt Ideal) (dist (m ((c : Thread nD τ).loc main_arg0)) (m ((c : Thread nD τ).loc main_arg1))) := by
  rw [flushed4]
  unfold out0_4
  rw [View.canon_unit_zero origin]
  simp only [View.ld_unit_zero (S := S1024x1000) origin, View.ld_unit_zero (S := S1024x1) origin, View.ld_unit_zero (S := S1x1024) origin]
  obtain ⟨e00, e01, e10, e11, e20, e21, e30, e31, b0, b1⟩ := block_indices t
  funext j
  obtain ⟨a, b, rfl⟩ : ∃ (a b : Fin 1024), j = ix2 a b := ⟨j 0, j 1, eq_ix2 j⟩
  show k0_pay1 (F := Ideal) (iblk m c 0 t) (iblk m c 1 t) (iblk m c 2 t) (iblk m c 3 t) (ix2 a b)
    = dist (m ((c : Thread nD τ).loc main_arg0)) (m ((c : Thread nD τ).loc main_arg1)) (((cfg0.win 4).blk t).view.emb (ix2 a b))
  refine (payload_apply (iblk m c 0 t) (iblk m c 1 t) (iblk m c 2 t) (iblk m c 3 t) a b).trans ?_
  refine entry_congr ?_ ?_ ?_
  · show V m c main_v2 (((cfg0.win 2).blk t).view.emb (ix2 a 0)) = _
    rw [entry_sqx, sqColumn_apply]
    refine congrArg (rowSq (m ((c : Thread nD τ).loc main_arg0))) (Fin.ext ?_)
    show win0_2.index t (0 : Fin 2) * 1024 + 1 * a.val = win0_4.index t (0 : Fin 2) * 1024 + 1 * a.val
    omega
  · show V m c main_v5 (((cfg0.win 3).blk t).view.emb (ix2 0 b)) = _
    rw [entry_sqp, sqRow_apply]
    refine congrArg (rowSq (m ((c : Thread nD τ).loc main_arg1))) (Fin.ext ?_)
    show win0_3.index t (1 : Fin 2) * 1024 + 1 * b.val = win0_4.index t (1 : Fin 2) * 1024 + 1 * b.val
    omega
  · refine Finset.sum_congr rfl fun k _ => ?_
    have hx : ((cfg0.win 0).blk t).view.emb (ix2 a k) = ix2 (n0 := 8192) ((((cfg0.win 4).blk t).view.emb (ix2 a b)) 0) k := funext fun d => Fin.ext (by
      match d with
      | ⟨0, _⟩ => show win0_0.index t (0 : Fin 2) * 1024 + 1 * a.val = win0_4.index t (0 : Fin 2) * 1024 + 1 * a.val; omega
      | ⟨1, _⟩ => show win0_0.index t (1 : Fin 2) * 1000 + 1 * k.val = k.val; omega)
    have hp : ((cfg0.win 1).blk t).view.emb (ix2 b k) = ix2 (n0 := 4096) ((((cfg0.win 4).blk t).view.emb (ix2 a b)) 1) k := funext fun d => Fin.ext (by
      match d with
      | ⟨0, _⟩ => show win0_1.index t (0 : Fin 2) * 1024 + 1 * b.val = win0_4.index t (1 : Fin 2) * 1024 + 1 * b.val; omega
      | ⟨1, _⟩ => show win0_1.index t (1 : Fin 2) * 1000 + 1 * k.val = k.val; omega)
    refine mul_congr ?_ ?_
    · show V m c main_v6 (((cfg0.win 0).blk t).view.emb (ix2 a k)) = _
      rw [entry_x, hx]
    · show V m c main_v7 (((cfg0.win 1).blk t).view.emb (ix2 b k)) = _
      rw [entry_p, hp]

/-! ## The blocks tile the array -/

/-- An index is in point `t`'s block iff each coordinate is in the block's range on its axis. -/
theorem mem_block (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v8).slice (win0_4.rect t)).set ↔ _
  rw [View.set_slice_whole, Rect.mem_set_unit]
  exact Iff.rfl

/-- Every index of the array is in the block of the point at block row `i 0 / 1024` and block column `i 1 / 1024`. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the run the output array is the distance matrix of the arguments. -/
theorem final (c : Dev nD) : (dats m 0 c).arrAt 4 cfg0.N = dist (m ((c : Thread nD τ).loc main_arg0)) (m ((c : Thread nD τ).loc main_arg1)) :=
  (dats m 0 c).arrAt_eq_of_cover 4 (dist (m ((c : Thread nD τ).loc main_arg0)) (m ((c : Thread nD τ).loc main_arg1))) (fun t _ => flushed_eq m c t) covered

/-- The kernel's run: it terminates with the result array at the distance matrix of the arguments, the arguments
    unchanged. -/
theorem run : θ_run defs (onTc (τ := τ) (main (F := Ideal))) ⟨m, fun _ => 0, ρ⟩ fun r => ∀ c : Dev nD,
      r.2.mem ((c : Thread nD τ).loc main_v8) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Distance

end
-- ==== Proof.lean ====
/-
  The pairwise Euclidean distances between the rows of `x` (8192 × 1000) and the rows of `p` (4096 × 1000):
  the kernel computes, block by block of 1024 × 1024 over an 8 × 4 grid, sqrt (max ((‖x r‖² + ‖p q‖²) - 2 · ⟨x r, p q⟩) 0)
  from squared norms the host prepared and a matrix product of narrowed copies of the two arguments; the reference
  computes the same expression on whole arrays. On the extended reals a change of float format is the identity and
  a block of the product is the restriction of the whole product, so both programs end holding the one function
  `Cert.PairwiseDistance.dist` of the arguments: the same operations in the same order, no law of arithmetic
  needed beyond reading each side index by index, hence no use of the inputs' finiteness.

  The three frames are the programs' runs with the results dropped; the idealization rewrote nothing, so the
  preservation claim is trivial; the algebraic claim puts the kernel's run (Proof/DistanceArray.lean) beside the
  reference's run read as the distance matrix (Proof/ReferenceDistance.lean).
-/
import proofs.«119724_j64458869178544_1_alg».proof.Defs
import proofs.«119724_j64458869178544_1_alg».proof.Proof.Gen.Kernel
import proofs.«119724_j64458869178544_1_alg».proof.Proof.Gen.Kernel.Skeleton
import proofs.«119724_j64458869178544_1_alg».proof.Proof.Gen.Kernel.Launch
import proofs.«119724_j64458869178544_1_alg».proof.Proof.Gen.Kernel.Points
import proofs.«119724_j64458869178544_1_alg».proof.Proof.Gen.Kernel.Frame
import proofs.«119724_j64458869178544_1_alg».proof.Proof.Gen.KernelIdeal
import proofs.«119724_j64458869178544_1_alg».proof.Proof.Gen.KernelIdeal.Skeleton
import proofs.«119724_j64458869178544_1_alg».proof.Proof.Gen.KernelIdeal.Launch
import proofs.«119724_j64458869178544_1_alg».proof.Proof.Gen.KernelIdeal.Points
import proofs.«119724_j64458869178544_1_alg».proof.Proof.Gen.KernelIdeal.Frame
import proofs.«119724_j64458869178544_1_alg».proof.Proof.Gen.ReferenceIdeal
import proofs.«119724_j64458869178544_1_alg».proof.Proof.Gen.Pre_finite_inputs
import proofs.«119724_j64458869178544_1_alg».proof.Proof.Gen.KernelIdeal.Value
import proofs.«119724_j64458869178544_1_alg».proof.Proof.Gen.ReferenceIdeal.Run
import proofs.«119724_j64458869178544_1_alg».proof.Proof.Gen.ReferenceIdeal.Read
import proofs.«119724_j64458869178544_1_alg».proof.Proof.PairwiseDistance
import proofs.«119724_j64458869178544_1_alg».proof.Proof.ReferenceDistance
import proofs.«119724_j64458869178544_1_alg».proof.Proof.BlockDistance
import proofs.«119724_j64458869178544_1_alg».proof.Proof.DistanceArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference is a sequence of host operations: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on `x` and `p` both programs end with the distance matrix of `x` and `p`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.PairwiseDistance.dist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Distance.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Distance.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
